-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x50x50 : Shape := ⟨4, ![16, 512, 50, 50]⟩
abbrev S_ : Shape := ⟨0, ![]⟩

class Facts : Prop where
  bcast_S_S16x512x50x50 : S_.BroadcastsInDim S16x512x50x50 (![] : Fin 0 → Fin S16x512x50x50.rank)
  reducesTo_S16x512x50x50_S_d0_1_2_3 : S16x512x50x50.ReducesTo [0, 1, 2, 3] S_
  h_S_ : 0 < S_.numel

variable [Facts]

def fn {F : FTy → Type} [FloatOps F] (main_arg0 : FVec F S16x512x50x50 .f32) (main_arg1 : FVec F S16x512x50x50 .f32) : IVec S_ 1 :=
  let main_v0 : FVec F S16x512x50x50 .f32 := Host.absf main_arg0
  let main_cst : FVec F S_ .f32 := constant S_ .f32 0x7F800000#32
  let main_v1 : FVec F S16x512x50x50 .f32 := broadcastInDim S16x512x50x50 ![] bcast_S_S16x512x50x50 main_cst
  let main_v2 : IVec S16x512x50x50 1 := cmpf .olt main_v0 main_v1
  let main_c : IVec S_ 1 := constantI S_ 1 1#1
  let main_v3 : IVec S_ 1 := (fun x v => Host.reduce IntOp.andi x v reducesTo_S16x512x50x50_S_d0_1_2_3 h_S_) main_v2 main_c
  let main_v4 : FVec F S16x512x50x50 .f32 := Host.absf main_arg1
  let main_cst_0 : FVec F S_ .f32 := constant S_ .f32 0x7F800000#32
  let main_v5 : FVec F S16x512x50x50 .f32 := broadcastInDim S16x512x50x50 ![] bcast_S_S16x512x50x50 main_cst_0
  let main_v6 : IVec S16x512x50x50 1 := cmpf .olt main_v4 main_v5
  let main_c_1 : IVec S_ 1 := constantI S_ 1 1#1
  let main_v7 : IVec S_ 1 := (fun x v => Host.reduce IntOp.andi x v reducesTo_S16x512x50x50_S_d0_1_2_3 h_S_) main_v6 main_c_1
  let main_v8 : IVec S_ 1 := andi main_v3 main_v7
  main_v8
-- ==== Kernel.lean ====
abbrev S16x512x50x50 : Shape := ⟨4, ![16, 512, 50, 50]⟩
abbrev S8192x25x100 : Shape := ⟨3, ![8192, 25, 100]⟩
abbrev S2x8x128 : Shape := ⟨3, ![2, 8, 128]⟩
abbrev S512x25x100 : Shape := ⟨3, ![512, 25, 100]⟩
abbrev S1x8x128 : Shape := ⟨3, ![1, 8, 128]⟩
abbrev S512x25 : Shape := ⟨2, ![512, 25]⟩
abbrev S512 : Shape := ⟨1, ![512]⟩
abbrev S1x512 : Shape := ⟨2, ![1, 512]⟩
abbrev S1 : Shape := ⟨1, ![1]⟩
abbrev S1x1 : Shape := ⟨2, ![1, 1]⟩
abbrev S8x128 : Shape := ⟨2, ![8, 128]⟩
abbrev S2x1x1 : Shape := ⟨3, ![2, 1, 1]⟩
abbrev S2 : Shape := ⟨1, ![2]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S16x512x50x50, .f32⟩
  | .hbm, ⟨1, _⟩ => ⟨S16x512x50x50, .f32⟩
  | .hbm, ⟨2, _⟩ => ⟨S8192x25x100, .f32⟩
  | .hbm, ⟨3, _⟩ => ⟨S8192x25x100, .f32⟩
  | .hbm, ⟨4, _⟩ => ⟨S2x8x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x25x100, .f32⟩
  | .local _ .vmem, ⟨1, _⟩ => ⟨S512x25x100, .f32⟩
  | .local _ .vmem, ⟨2, _⟩ => ⟨S512x25x100, .f32⟩
  | .local _ .vmem, ⟨3, _⟩ => ⟨S512x25x100, .f32⟩
  | .local _ .vmem, ⟨4, _⟩ => ⟨S1x8x128, .f32⟩
  | .local _ .vmem, ⟨5, _⟩ => ⟨S1x8x128, .f32⟩
  | _, _ => ⟨S16x512x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x25x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x25x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x512x50x50_S8192x25x100 : S16x512x50x50.ShapeCasts S8192x25x100
  inb_S1x8x128_S1x8x128_0_0_0 : ∀ a, (![0, 0, 0] : Fin 3 → Nat) a + S1x8x128.size a ≤ S1x8x128.size a
  h_S1x8x128 : 0 < S1x8x128.numel
  inb_S512x25x100_S512x25x100_0_0_0 : ∀ a, (![0, 0, 0] : Fin 3 → Nat) a + S512x25x100.size a ≤ S512x25x100.size a
  h_S512x25x100 : 0 < S512x25x100.numel
  shapeCasts_S512x25x100_S512x25x100 : S512x25x100.ShapeCasts S512x25x100
  reduces_S512x25x100_S512x25 : S512x25x100.Reduces [2] S512x25
  reduces_S512x25_S512 : S512x25.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  iota_S8x128_d0_w32 : S8x128.Iotas .tc 32 [0]
  iota_S8x128_d1_w32 : S8x128.Iotas .tc 32 [1]
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x25x100.size a ≤ S8192x25x100.size a
  hwx0_0 : ∀ i : grid0.Coords, EltTy.bits .f32 = 32 ∨ (Rect.block (s := S8192x25x100) S512x25x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x25x100.size a ≤ S8192x25x100.size a
  hwx0_1 : ∀ i : grid0.Coords, EltTy.bits .f32 = 32 ∨ (Rect.block (s := S8192x25x100) S512x25x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S512x25x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x25x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x50x50 : Shape := ⟨4, ![16, 512, 50, 50]⟩
abbrev S8192x25x100 : Shape := ⟨3, ![8192, 25, 100]⟩
abbrev S_ : Shape := ⟨0, ![]⟩
abbrev S8192x25 : Shape := ⟨2, ![8192, 25]⟩
abbrev S8192 : Shape := ⟨1, ![8192]⟩

abbrev nBuf : Space → Nat
  | .hbm => 23
  | .vmem => 0
  | .smem => 0
  | _ => 0

abbrev bufTy : (tb : Table) → Fin (tcTables nBuf tb) → BufTy
  | .hbm, ⟨0, _⟩ => ⟨S16x512x50x50, .f32⟩
  | .hbm, ⟨1, _⟩ => ⟨S16x512x50x50, .f32⟩
  | .hbm, ⟨2, _⟩ => ⟨S8192x25x100, .f32⟩
  | .hbm, ⟨3, _⟩ => ⟨S8192x25x100, .f32⟩
  | .hbm, ⟨4, _⟩ => ⟨S_, .f32⟩
  | .hbm, ⟨5, _⟩ => ⟨S8192x25, .f32⟩
  | .hbm, ⟨6, _⟩ => ⟨S_, .f32⟩
  | .hbm, ⟨7, _⟩ => ⟨S8192x25, .f32⟩
  | .hbm, ⟨8, _⟩ => ⟨S8192x25, .f32⟩
  | .hbm, ⟨9, _⟩ => ⟨S_, .f32⟩
  | .hbm, ⟨10, _⟩ => ⟨S8192x25, .f32⟩
  | .hbm, ⟨11, _⟩ => ⟨S_, .f32⟩
  | .hbm, ⟨12, _⟩ => ⟨S8192x25, .f32⟩
  | .hbm, ⟨13, _⟩ => ⟨S8192x25, .f32⟩
  | .hbm, ⟨14, _⟩ => ⟨S8192x25, .f32⟩
  | .hbm, ⟨15, _⟩ => ⟨S8192x25, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | _, _ => ⟨S16x512x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  shapeCasts_S16x512x50x50_S8192x25x100 : S16x512x50x50.ShapeCasts S8192x25x100
  reducesTo_S8192x25x100_S8192x25_d2 : S8192x25x100.ReducesTo [2] S8192x25
  h_S_ : 0 < S_.numel
  bcast_S_S8192x25 : S_.BroadcastsInDim S8192x25 (![] : Fin 0 → Fin S8192x25.rank)
  reducesTo_S8192x25_S8192_d1 : S8192x25.ReducesTo [1] S8192
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.Finite.lean ====
/-
  From the precondition to real numbers.

  The precondition says, of each of the two inputs, that every entry's absolute value is below `+∞`. An extended real
  whose absolute value `max x (-x)` is below `+∞` is neither infinity (at either infinity the maximum is `+∞`), so
  every entry of both inputs is a real number.
-/
import proofs.«104892_j23021024706837_1_alg».proof.Pre_finite_inputs
import proofs.«104892_j23021024706837_1_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- The word `0x7F800000` denotes `+∞`. -/
theorem word_inf : Ideal.ofBits .f32 0x7F800000#32 = ⊤ := by
  simp [Ideal.ofBits, Ideal.ieee]

/-- An extended real whose absolute value compares below `+∞` is neither infinity. -/
theorem ne_inf_of_abs_lt (x : EReal) (h : Ideal.cmp .olt (max x (-x)) (Ideal.ofBits .f32 0x7F800000#32) = 1#1) :
    x ≠ ⊥ ∧ x ≠ ⊤ := by
  rw [word_inf] at h
  induction x using EReal.rec with
  | bot => simp [Ideal.cmp] at h
  | top => simp [Ideal.cmp] at h
  | coe r => exact ⟨EReal.coe_ne_bot r, EReal.coe_ne_top r⟩

/-- Under the precondition every entry of both inputs is a real number. -/
theorem real_of_pre (x y : FVec Ideal S16x512x50x50 .f32) (h : fn (F := Ideal) x y = fun _ => 1#1) :
    (∀ i, x i ≠ ⊥ ∧ x i ≠ ⊤) ∧ (∀ i, y i ≠ ⊥ ∧ y i ≠ ⊤) := by
  have e := congrFun h ValueIdx.ix0
  dsimp only [fn] at e
  obtain ⟨ex, ey⟩ := IntOp.andi_eq_one.1 e
  exact ⟨fun i => ne_inf_of_abs_lt (x i) (Host.reduce_andi_all _ _ _ _ _ ex i),
    fun i => ne_inf_of_abs_lt (y i) (Host.reduce_andi_all _ _ _ _ _ ey i)⟩

end Cert.Finite

end
-- ==== Proof.Spec.lean ====
/-
  The mathematics both programs compute, over the real numbers.

  The two inputs are read as arrays of 8192 rows, each row 25 chunks of 100 entries. For a row `r` and a chunk `c`
  let `d r c` be the difference of the two inputs' chunk sums. One program sums `d r c ^ 2` over the 25 chunks and
  the 512 rows of a tile, adds the sixteen tiles up in two groups of eight, adds the two groups and divides by
  250000 = 100 · 100 · 25; the other divides each chunk sum by 100 before subtracting, squares, takes the mean over
  the 25 chunks of each row and sums over all rows. Over the reals both are `(∑ r c, d r c ^ 2) / 250000`:
  `(a / 100 - b / 100) ^ 2 = (a - b) ^ 2 / 10000`, division distributes over finite sums, and the rows are the
  tiles laid end to end. The arrays are indexed by natural numbers here so that the row arithmetic is linear
  arithmetic; sums are over initial segments of the naturals.

  Also here: the three float words the programs spell (100, 25, 250000) as extended reals, the coercion of a finite
  real sum, division of a real by a nonzero real in the extended reals, and the real array (indexed by naturals)
  behind an array of extended reals none of whose entries is an infinity.
-/
import Idealize.ShloMosaic.PureOps.Ideal
import Idealize.ShloMosaic.PureOps.Ideal.Laws
import Idealize.ShloMosaic.Lib.ValueIdx

noncomputable section

namespace Cert.Spec

open Idealize.ShloMosaic
open scoped BigOperators

/-! ## Words -/

/-- The word of `100.0`. -/
theorem word_100 : Ideal.ofBits .f32 0x42C80000#32 = ((100 : ℝ) : EReal) := by
  simp [Ideal.ofBits, Ideal.ieee, -EReal.coe_mul]; norm_num

/-- The word of `25.0`. -/
theorem word_25 : Ideal.ofBits .f32 0x41C80000#32 = ((25 : ℝ) : EReal) := by
  simp [Ideal.ofBits, Ideal.ieee, -EReal.coe_mul]; norm_num

/-- The word of `250000.0`. -/
theorem word_250000 : Ideal.ofBits .f32 0x48742400#32 = ((250000 : ℝ) : EReal) := by
  simp [Ideal.ofBits, Ideal.ieee, -EReal.coe_mul]; norm_num

/-- The word of `+0.0` is the real zero. -/
theorem word_zero : Ideal.ofBits .f32 0x00000000#32 = ((0 : ℝ) : EReal) := by
  rw [Ideal.ofBits_zero_f32, EReal.coe_zero]

/-! ## Reals inside the extended reals -/

/-- A finite sum of reals, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real divided by a nonzero real, in the extended reals, is the real quotient. -/
theorem div_real (x : ℝ) {y : ℝ} (hy : y ≠ 0) : Ideal.div (x : EReal) (y : EReal) = ((x / y : ℝ) : EReal) := by
  rw [Ideal.div_coe hy, ← EReal.coe_mul, mul_one_div]

/-- The real entries of an array of 8192 rows × 25 chunks × 100 entries over the extended reals, indexed by natural
    numbers (zero outside the array). -/
def realOf (X : (⟨3, ![8192, 25, 100]⟩ : Shape).Idx → EReal) (r c k : ℕ) : ℝ :=
  if h : r < 8192 ∧ c < 25 ∧ k < 100 then (X (ValueIdx.ix3 ⟨r, h.1⟩ ⟨c, h.2.1⟩ ⟨k, h.2.2⟩)).toReal else 0

/-- An array none of whose entries is an infinity is its real entries. -/
theorem coe_realOf (X : (⟨3, ![8192, 25, 100]⟩ : Shape).Idx → EReal) (hX : ∀ i, X i ≠ ⊥ ∧ X i ≠ ⊤)
    (i : (⟨3, ![8192, 25, 100]⟩ : Shape).Idx) : X i = ((realOf X (i 0).val (i 1).val (i 2).val : ℝ) : EReal) := by
  unfold realOf
  rw [dif_pos ⟨(i 0).isLt, (i 1).isLt, (i 2).isLt⟩, EReal.coe_toReal (hX _).2 (hX _).1]
  exact congrArg X (ValueIdx.eq_ix3 i)

/-- A sum over the indices of a one-axis array is the sum over the axis. -/
theorem sum_idx1 {n : ℕ} (f : (⟨1, ![n]⟩ : Shape).Idx → EReal) : ∑ i, f i = ∑ a : Fin n, f (ValueIdx.ix1 a) := by
  let e : (⟨1, ![n]⟩ : Shape).Idx ≃ Fin n :=
    ⟨fun i => i 0, fun a => ValueIdx.ix1 a, fun i => (ValueIdx.eq_ix1 i).symm, fun _ => rfl⟩
  rw [← Equiv.sum_comp e.symm f]
  rfl

/-! ## The two losses -/

variable (A B : ℕ → ℕ → ℕ → ℝ)

/-- The difference of the two inputs' sums over chunk `c` of row `r`. -/
def chunkDiff (r c : ℕ) : ℝ := (∑ k ∈ Finset.range 100, A r c k) - ∑ k ∈ Finset.range 100, B r c k

/-- Row `r`'s sum over its chunks of the squared difference. -/
def rowSq (r : ℕ) : ℝ := ∑ c ∈ Finset.range 25, chunkDiff A B r c * chunkDiff A B r c

/-- Tile `t`'s sum over its 512 rows. -/
def tileSq (t : ℕ) : ℝ := ∑ j ∈ Finset.range 512, rowSq A B (512 * t + j)

/-- Group `p`'s running sum after `n` of its eight tiles. -/
def groupSq (p n : ℕ) : ℝ := ∑ u ∈ Finset.range n, tileSq A B (8 * p + u)

/-- The first program's value: the two groups of eight tiles, over 250000. -/
def tiledLoss : ℝ := (∑ p ∈ Finset.range 2, groupSq A B p 8) / 250000

/-- The squared difference of the two inputs' MEANS over chunk `c` of row `r`. -/
def meanSq (r c : ℕ) : ℝ :=
  ((∑ k ∈ Finset.range 100, A r c k) / 100 - (∑ k ∈ Finset.range 100, B r c k) / 100)
    * ((∑ k ∈ Finset.range 100, A r c k) / 100 - (∑ k ∈ Finset.range 100, B r c k) / 100)

/-- The second program's value: per row the mean over the chunks of the squared difference of the chunk means. -/
def meanLoss : ℝ := ∑ r ∈ Finset.range 8192, (∑ c ∈ Finset.range 25, meanSq A B r c) / 25

/-- A sum over `n · m` consecutive naturals is the sum over `n` consecutive runs of `m`. -/
theorem sum_range_mul (f : ℕ → ℝ) (m : ℕ) :
    ∀ n, ∑ r ∈ Finset.range (n * m), f r = ∑ t ∈ Finset.range n, ∑ j ∈ Finset.range m, f (m * t + j)
  | 0 => by simp
  | n + 1 => by
    rw [Nat.succ_mul, Finset.sum_range_add, sum_range_mul f m n, Finset.sum_range_succ, Nat.mul_comm n m]

/-- The rows are the sixteen tiles, and the tiles the two groups, laid end to end. -/
theorem sum_rows : ∑ r ∈ Finset.range 8192, rowSq A B r = ∑ p ∈ Finset.range 2, groupSq A B p 8 := by
  rw [show (8192 : ℕ) = 16 * 512 from rfl, sum_range_mul, show (16 : ℕ) = 2 * 8 from rfl,
    sum_range_mul (fun t => ∑ j ∈ Finset.range 512, rowSq A B (512 * t + j))]
  rfl

/-- The two losses are one real number. -/
theorem tiledLoss_eq_meanLoss : tiledLoss A B = meanLoss A B := by
  unfold tiledLoss meanLoss
  rw [← sum_rows, Finset.sum_div]
  refine Finset.sum_congr rfl fun r _ => ?_
  calc rowSq A B r / 250000
      = (∑ c ∈ Finset.range 25, chunkDiff A B r c * chunkDiff A B r c / 10000) / 25 := by
        rw [← Finset.sum_div, div_div]; norm_num [rowSq]
    _ = _ := by
        refine congrArg (· / 25) (Finset.sum_congr rfl fun c _ => ?_)
        unfold chunkDiff meanSq; ring

end Cert.Spec

end
-- ==== Proof.RefValue.lean ====
/-
  The reference's result, over real inputs.

  The reference reshapes both inputs to 8192 rows × 25 chunks × 100 entries, takes each chunk's sum and divides it by
  100, subtracts, squares, sums over a row's chunks and divides by 25, and sums over the rows; every sum starts from
  the zero word. Read one operation at a time over inputs whose entries are real numbers, each stage is the
  corresponding real expression: a finite sum of reals is a real, and a real divided by 100 or 25 is the real quotient.
-/
import proofs.«104892_j23021024706837_1_alg».proof.Proof.Gen.ReferenceIdeal.Run
import proofs.«104892_j23021024706837_1_alg».proof.Proof.Gen.ReferenceIdeal.Read
import proofs.«104892_j23021024706837_1_alg».proof.Proof.Spec

noncomputable section

namespace Cert.ReferenceIdeal.RefValue

open Idealize.ShloMosaic Idealize.ShloMosaic.ValueIdx Cert.ReferenceIdeal Cert.ReferenceIdeal.Gen Cert.ReferenceIdeal.Read Cert.Spec
open scoped BigOperators

variable (x0 x1 : (⟨S16x512x50x50, .f32⟩ : BufTy).Contents (Elt Ideal)) (A B : ℕ → ℕ → ℕ → ℝ)
variable (hA : ∀ i : S8192x25x100.Idx, val_main_v0 (F := Ideal) x0 i = ((A (i 0).val (i 1).val (i 2).val : ℝ) : EReal))
variable (hB : ∀ i : S8192x25x100.Idx, val_main_v1 (F := Ideal) x1 i = ((B (i 0).val (i 1).val (i 2).val : ℝ) : EReal))

include hA in
/-- The first input's chunk sums. -/
theorem sums0_apply (j : S8192x25.Idx) :
    val_main_v2 (F := Ideal) x0 j = ((∑ k ∈ Finset.range 100, A (j 0).val (j 1).val k : ℝ) : EReal) := by
  rw [val_main_v2_apply]
  show Ideal.ofBits .f32 0x00000000#32 + _ = _
  rw [Ideal.ofBits_zero_f32, zero_add, coe_sum,
    ← Fin.sum_univ_eq_sum_range (fun k => ((A (j 0).val (j 1).val k : ℝ) : EReal)) 100]
  exact Finset.sum_congr rfl fun k _ => hA _

include hB in
/-- The second input's chunk sums. -/
theorem sums1_apply (j : S8192x25.Idx) :
    val_main_v5 (F := Ideal) x1 j = ((∑ k ∈ Finset.range 100, B (j 0).val (j 1).val k : ℝ) : EReal) := by
  rw [val_main_v5_apply]
  show Ideal.ofBits .f32 0x00000000#32 + _ = _
  rw [Ideal.ofBits_zero_f32, zero_add, coe_sum,
    ← Fin.sum_univ_eq_sum_range (fun k => ((B (j 0).val (j 1).val k : ℝ) : EReal)) 100]
  exact Finset.sum_congr rfl fun k _ => hB _

include hA in
/-- The first input's chunk means. -/
theorem means0_apply (j : S8192x25.Idx) :
    val_main_v4 (F := Ideal) x0 j = (((∑ k ∈ Finset.range 100, A (j 0).val (j 1).val k) / 100 : ℝ) : EReal) := by
  show Ideal.div (val_main_v2 (F := Ideal) x0 j) (Ideal.ofBits .f32 0x42C80000#32) = _
  rw [sums0_apply x0 A hA, word_100, div_real _ (by norm_num)]

include hB in
/-- The second input's chunk means. -/
theorem means1_apply (j : S8192x25.Idx) :
    val_main_v7 (F := Ideal) x1 j = (((∑ k ∈ Finset.range 100, B (j 0).val (j 1).val k) / 100 : ℝ) : EReal) := by
  show Ideal.div (val_main_v5 (F := Ideal) x1 j) (Ideal.ofBits .f32 0x42C80000#32) = _
  rw [sums1_apply x1 B hB, word_100, div_real _ (by norm_num)]

include hA hB in
/-- The squared differences of the chunk means. -/
theorem sq_apply (j : S8192x25.Idx) :
    val_main_v9 (F := Ideal) x0 x1 j = ((meanSq A B (j 0).val (j 1).val : ℝ) : EReal) := by
  show (val_main_v4 (F := Ideal) x0 j - val_main_v7 (F := Ideal) x1 j)
    * (val_main_v4 (F := Ideal) x0 j - val_main_v7 (F := Ideal) x1 j) = _
  rw [means0_apply x0 A hA, means1_apply x1 B hB, ← EReal.coe_sub, ← EReal.coe_mul]
  rfl

include hA hB in
/-- Their sums over a row's chunks. -/
theorem rows_apply (i : S8192.Idx) :
    val_main_v10 (F := Ideal) x0 x1 i = ((∑ c ∈ Finset.range 25, meanSq A B (i 0).val c : ℝ) : EReal) := by
  rw [val_main_v10_apply]
  show Ideal.ofBits .f32 0x00000000#32 + _ = _
  rw [Ideal.ofBits_zero_f32, zero_add, coe_sum,
    ← Fin.sum_univ_eq_sum_range (fun c => ((meanSq A B (i 0).val c : ℝ) : EReal)) 25]
  exact Finset.sum_congr rfl fun c _ => sq_apply x0 x1 A B hA hB _

include hA hB in
/-- The rows' means over their chunks. -/
theorem rowMeans_apply (i : S8192.Idx) :
    val_main_v12 (F := Ideal) x0 x1 i = (((∑ c ∈ Finset.range 25, meanSq A B (i 0).val c) / 25 : ℝ) : EReal) := by
  show Ideal.div (val_main_v10 (F := Ideal) x0 x1 i) (Ideal.ofBits .f32 0x41C80000#32) = _
  rw [rows_apply x0 x1 A B hA hB, word_25, div_real _ (by norm_num)]

include hA hB in
/-- THE REFERENCE'S RESULT over real inputs: the real number `meanLoss`. -/
theorem result_apply (j : S_.Idx) : val_main_v13 (F := Ideal) x0 x1 j = ((meanLoss A B : ℝ) : EReal) := by
  rw [val_main_v13_apply]
  show Ideal.ofBits .f32 0x00000000#32 + _ = _
  unfold meanLoss
  rw [Ideal.ofBits_zero_f32, zero_add, sum_idx1, coe_sum,
    ← Fin.sum_univ_eq_sum_range (fun r => (((∑ c ∈ Finset.range 25, meanSq A B r c) / 25 : ℝ) : EReal)) 8192]
  exact Finset.sum_congr rfl fun r _ => rowMeans_apply x0 x1 A B hA hB (ix1 r)

end Cert.ReferenceIdeal.RefValue

end
-- ==== Proof.Pieces.lean ====
/-
  What each of the body's two control cases leaves in the accumulator block, as a value.

  At a grid point whose position along the second grid axis is zero the body first stores the zero block, then
  reads it back and stores `zero block + contribution`; at every other point it reads the block the point before left
  and stores `that + contribution`. In both cases the last store covers the whole block, so the block ends holding
  that store's value, with the loads of the whole input blocks reading the blocks themselves.
-/
import proofs.«104892_j23021024706837_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem offsets_zero : (![0, 0, 0] : Fin 3 → Nat) = fun _ => 0 := funext fun a => by fin_cases a <;> rfl

/-- A point that does not reset: the block that was there, plus the contribution of the two input blocks. -/
theorem out_carry (c : Dev nD) (i : grid0.Coords) (a2 : Memref sig .tc .vmem S512x25x100 .f32) (h2 : a2.IsWhole)
    (a3 : Memref sig .tc .vmem S512x25x100 .f32) (h3 : a3.IsWhole) (a4 : Memref sig .tc .vmem S1x8x128 .f32) (h4 : a4.IsWhole)
    (hc : ¬cond0_0 i) (x0 x1 : Vec F S512x25x100 .f32) (xo : Vec F S1x8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero offsets_zero]
  simp only [View.readAt_eq_ld, h2.read_unread, h3.read_unread, h4.read_unread,
    View.ld_unit_zero (S := S512x25x100) offsets_zero, View.ld_unit_zero (S := S1x8x128) offsets_zero]

/-- A point that resets: the zero block, plus the contribution of the two input blocks. -/
theorem out_reset (c : Dev nD) (i : grid0.Coords) (a2 : Memref sig .tc .vmem S512x25x100 .f32) (h2 : a2.IsWhole)
    (a3 : Memref sig .tc .vmem S512x25x100 .f32) (h3 : a3.IsWhole) (a4 : Memref sig .tc .vmem S1x8x128 .f32) (h4 : a4.IsWhole)
    (hc : cond0_0 i) (x0 x1 : Vec F S512x25x100 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) offsets_zero]
  simp only [View.readAt_eq_ld, h2.read_unread, h3.read_unread, View.ld_unit_zero (S := S512x25x100) offsets_zero,
    View.readCov_unit_zero (S := S1x8x128) _ offsets_zero]

end Cert.KernelIdeal.Pieces

end
-- ==== Proof.Tile.lean ====
/-
  One tile's contribution, at the ideal instance.

  The body of the kernel reads two blocks of 512 rows × 25 chunks × 100 entries and adds ONE number to the corner
  entry (0, 0, 0) of its accumulator block: the sum, over the 512 rows and the 25 chunks, of the squared difference of
  the two blocks' chunk sums. (Elsewhere in the accumulator block it adds zero; only the corner is read afterwards.)
  This module reads the body's stored value at that corner, operation by operation: a chunk sum is the sum over the
  last axis, the row sum the sum over the chunk axis, the tile's total the sum over the rows; the mask built from the
  two iotas is set at the corner, so the select there returns the total.

  The blocks are taken to hold real numbers, given by real arrays `A`, `B` indexed by row, chunk and entry, the
  block's first row being row `off` of the arrays; every sum is then a real sum.
-/
import proofs.«104892_j23021024706837_1_alg».proof.Proof.Gen.KernelIdeal.Skeleton
import proofs.«104892_j23021024706837_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.Spec
open scoped BigOperators

/-! ## The body's arithmetic, named piece by piece -/

/-- The 25 chunk sums of each of a block's 512 rows. -/
def chunkSums (x : Vec Ideal S512x25x100 .f32) : FVec Ideal S512x25 .f32 :=
  multiReduction .add [2] S512x25 (shapeCast S512x25x100 x shapeCasts_S512x25x100_S512x25x100) 0x00000000#32
    reduces_S512x25x100_S512x25 (.inl rfl) rfl

/-- The squared differences of the two blocks' chunk sums. -/
def sqDiff (x0 x1 : Vec Ideal S512x25x100 .f32) : FVec Ideal S512x25 .f32 :=
  mulf (subf (chunkSums x0) (chunkSums x1)) (subf (chunkSums x0) (chunkSums x1))

/-- Their sums over the chunks of each row. -/
def rowSums (x0 x1 : Vec Ideal S512x25x100 .f32) : FVec Ideal S512 .f32 :=
  multiReduction .add [1] S512 (sqDiff x0 x1) 0x00000000#32 reduces_S512x25_S512 (.inl rfl) rfl

/-- The tile's total: the row sums summed over the rows. -/
def total (x0 x1 : Vec Ideal S512x25x100 .f32) : Ideal .f32 :=
  extractAt ![0, 0] (shapeCast S1x1 (multiReduction .add [1] S1 (shapeCast S1x512 (rowSums x0 x1) shapeCasts_S512_S1x512)
    0x00000000#32 reduces_S1x512_S1 (.inl rfl) rfl) shapeCasts_S1_S1x1) inpos_S1x1_p0_0

/-- The mask: row coordinate zero and lane coordinate zero. -/
def cornerMask : IVec S8x128 1 :=
  andi (cmpi .eq (iota .tc S8x128 32 [0] iota_S8x128_d0_w32) (broadcast S8x128 0#32))
    (cmpi .eq (iota .tc S8x128 32 [1] iota_S8x128_d1_w32) (broadcast S8x128 0#32))

/-- The value the body stores back into its accumulator block, over these names. -/
theorem pay2_eq (x0 x1 : Vec Ideal S512x25x100 .f32) (acc : Vec Ideal S1x8x128 .f32) :
    k0_pay2 x0 x1 acc = shapeCast S1x8x128 (addf (shapeCast S8x128 acc shapeCasts_S1x8x128_S8x128)
      (select cornerMask (broadcast S8x128 (total x0 x1)) (broadcast S8x128 (Scalar.ofBits .f32 0x00000000#32))))
      shapeCasts_S8x128_S1x8x128 := rfl

/-! ## Each piece at an index, over real blocks -/

variable (A B : ℕ → ℕ → ℕ → ℝ) (off : ℕ) (x0 x1 : Vec Ideal S512x25x100 .f32)
variable (h0 : ∀ i : S512x25x100.Idx, x0 i = ((A (off + (i 0).val) (i 1).val (i 2).val : ℝ) : EReal))
variable (h1 : ∀ i : S512x25x100.Idx, x1 i = ((B (off + (i 0).val) (i 1).val (i 2).val : ℝ) : EReal))

include h0 in
/-- A chunk sum of a real block is the real sum of the chunk's hundred entries. -/
theorem chunkSums_apply (i : S512x25.Idx) :
    chunkSums x0 i = ((∑ k ∈ Finset.range 100, A (off + (i 0).val) (i 1).val k : ℝ) : EReal) := by
  unfold chunkSums
  rw [shapeCast_self]
  refine (Ideal.multiReduction_add_single x0 0x00000000#32 reduces_S512x25x100_S512x25 (.inl rfl) rfl i).trans ?_
  rw [coe_sum, ← Fin.sum_univ_eq_sum_range (fun k => ((A (off + (i 0).val) (i 1).val k : ℝ) : EReal)) 100]
  exact Finset.sum_congr rfl fun k _ => h0 _

include h0 h1 in
/-- A squared difference of chunk sums is the real square. -/
theorem sqDiff_apply (i : S512x25.Idx) :
    sqDiff x0 x1 i = ((chunkDiff A B (off + (i 0).val) (i 1).val * chunkDiff A B (off + (i 0).val) (i 1).val : ℝ) : EReal) := by
  show (chunkSums x0 i - chunkSums x1 i) * (chunkSums x0 i - chunkSums x1 i) = _
  rw [chunkSums_apply A off x0 h0, chunkSums_apply B off x1 h1, ← EReal.coe_sub, ← EReal.coe_mul]
  rfl

include h0 h1 in
/-- A row sum is the row's real sum of squares. -/
theorem rowSums_apply (i : S512.Idx) : rowSums x0 x1 i = ((rowSq A B (off + (i 0).val) : ℝ) : EReal) := by
  unfold rowSums rowSq
  refine (Ideal.multiReduction_add_single (sqDiff x0 x1) 0x00000000#32 reduces_S512x25_S512 (.inl rfl) rfl i).trans ?_
  rw [coe_sum,
    ← Fin.sum_univ_eq_sum_range (fun c => ((chunkDiff A B (off + (i 0).val) c * chunkDiff A B (off + (i 0).val) c : ℝ) : EReal)) 25]
  exact Finset.sum_congr rfl fun c _ => sqDiff_apply A B off x0 x1 h0 h1 _

include h0 h1 in
/-- The tile's total is the real sum of its 512 rows' sums of squares. -/
theorem total_eq (t : ℕ) (ht : off = 512 * t) : total x0 x1 = ((tileSq A B t : ℝ) : EReal) := by
  subst ht
  unfold total tileSq
  have e : ∀ v : S1x1.Idx → EReal, extractAt ![0, 0] v inpos_S1x1_p0_0 = v (ix2 (0 : Fin 1) (0 : Fin 1)) := fun v =>
    congrArg v (funext fun a => Fin.ext (by match a with | ⟨0, _⟩ => rfl | ⟨1, _⟩ => rfl))
  rw [e, shapeCast_a_1a_apply]
  refine (Ideal.multiReduction_add_single (shapeCast S1x512 (rowSums x0 x1) shapeCasts_S512_S1x512) 0x00000000#32
    reduces_S1x512_S1 (.inl rfl) rfl (ix1 (0 : Fin 1))).trans ?_
  rw [coe_sum, ← Fin.sum_univ_eq_sum_range (fun j => ((rowSq A B (512 * t + j) : ℝ) : EReal)) 512]
  refine Finset.sum_congr rfl fun k _ => ?_
  refine (shapeCast_apply (rowSums x0 x1) shapeCasts_S512_S1x512 _ (ix1 k) ?_).trans
    (rowSums_apply A B (512 * t) x0 x1 h0 h1 (ix1 k))
  rw [Shape.rowMajor_val_one, Shape.rowMajor_val_two]
  show k.val = 0 * 512 + k.val
  omega

/-- The mask is set at the corner. -/
theorem cornerMask_corner : cornerMask (ix2 (0 : Fin 8) (0 : Fin 128)) = 1#1 := by
  unfold cornerMask
  show IntOp.andi (IntOp.cmpi .eq (iota .tc S8x128 32 [0] iota_S8x128_d0_w32 (ix2 (0 : Fin 8) (0 : Fin 128))) 0#32)
    (IntOp.cmpi .eq (iota .tc S8x128 32 [1] iota_S8x128_d1_w32 (ix2 (0 : Fin 8) (0 : Fin 128))) 0#32) = 1#1
  rw [iota_single_apply, iota_single_apply]
  rfl

include h0 h1 in
/-- THE CORNER after one tile: what the accumulator block held there, plus the tile's real total. -/
theorem pay2_corner (t : ℕ) (ht : off = 512 * t) (acc : Vec Ideal S1x8x128 .f32) :
    k0_pay2 x0 x1 acc (ix3 (0 : Fin 1) (0 : Fin 8) (0 : Fin 128))
      = acc (ix3 (0 : Fin 1) (0 : Fin 8) (0 : Fin 128)) + ((tileSq A B t : ℝ) : EReal) := by
  rw [pay2_eq, shapeCast_ab_1ab_apply]
  show shapeCast S8x128 acc shapeCasts_S1x8x128_S8x128 (ix2 (0 : Fin 8) (0 : Fin 128))
    + Scalar.select (cornerMask (ix2 (0 : Fin 8) (0 : Fin 128))) (total x0 x1) (Scalar.ofBits .f32 0x00000000#32) = _
  rw [shapeCast_1ab_ab_apply, cornerMask_corner, select_one, total_eq A B off x0 x1 h0 h1 t ht]

/-- The reset block holds the real zero at the corner (as everywhere). -/
theorem pay1_corner : k0_pay1 (F := Ideal) (ix3 (0 : Fin 1) (0 : Fin 8) (0 : Fin 128)) = ((0 : ℝ) : EReal) :=
  word_zero

end Cert.KernelIdeal.Tile

end
-- ==== Proof.Accum.lean ====
/-
  The kernel's result, over real inputs.

  The grid has sixteen points in two groups of eight. Point `t` reads tile `t` of each input (rows `512 t` to
  `512 t + 511`) and works on accumulator block `t / 8` of the 2 × 8 × 128 output; the block is written back after
  the last point of its group (points 7 and 15). By induction on the point, the corner entry of the accumulator block
  after point `n` is the real sum of the tiles of its group met so far: a group's first point stores zero and adds its
  tile, every other point adds its tile to what the point before left. So the output array ends holding, at
  `(p, 0, 0)`, group `p`'s sum of its eight tiles. The host then slices those two entries out, adds them from zero and
  divides by 250000.
-/
import proofs.«104892_j23021024706837_1_alg».proof.Proof.Pieces
import proofs.«104892_j23021024706837_1_alg».proof.Proof.Tile
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Spec
open scoped BigOperators

variable (m : (ℓ : Loc nD τ sig) → Buf (Elt Ideal) ℓ) (ρ : Dev nD → PrngReg) (c : Dev nD)

/-! ## The inputs as the region finds them -/

/-- The first input, reshaped by the host to rows × chunks × entries. -/
theorem entry0 : (V m c main_v0 : S8192x25x100.Idx → EReal)
    = shapeCast S8192x25x100 (m ((c : Thread nD τ).loc main_arg0)) shapeCasts_S16x512x50x50_S8192x25x100 := by
  show StableHlo.after hostOps0 (fun b => m (c, b)) (Proc.devRef .tc main_v0) = _
  after_results
  rfl

/-- The second input, likewise. -/
theorem entry1 : (V m c main_v1 : S8192x25x100.Idx → EReal)
    = shapeCast S8192x25x100 (m ((c : Thread nD τ).loc main_arg1)) shapeCasts_S16x512x50x50_S8192x25x100 := by
  show StableHlo.after hostOps0 (fun b => m (c, b)) (Proc.devRef .tc main_v1) = _
  after_results
  rfl

/-! ## The tiles -/

/-- Tile `t` of the first input, as the body's first operand at point `t`. -/
abbrev tile0 (t : Fin cfg0.N) : Vec Ideal S512x25x100 .f32 := iblk m c 0 t
/-- Tile `t` of the second input, as the body's second operand at point `t`. -/
abbrev tile1 (t : Fin cfg0.N) : Vec Ideal S512x25x100 .f32 := iblk m c 1 t

/-- The input windows' block index at point `t` is `t` along the rows and zero along the other two axes; the
    output window's is `t / 8` along the groups and zero along the other two. Decided over the grid. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

variable (A B : ℕ → ℕ → ℕ → ℝ)
variable (hA : ∀ i : S8192x25x100.Idx, V m c main_v0 i = ((A (i 0).val (i 1).val (i 2).val : ℝ) : EReal))
variable (hB : ∀ i : S8192x25x100.Idx, V m c main_v1 i = ((B (i 0).val (i 1).val (i 2).val : ℝ) : EReal))

include hA in
/-- Tile `t` of the first input holds rows `512 t …` of the real array. -/
theorem tile0_apply (t : Fin cfg0.N) (i : S512x25x100.Idx) :
    tile0 m c t i = ((A (512 * t.val + (i 0).val) (i 1).val (i 2).val : ℝ) : EReal) := by
  obtain ⟨e0, e1, e2, -⟩ := block_indices t
  have key : ∀ j : S8192x25x100.Idx, (j 0).val = 512 * t.val + (i 0).val → (j 1).val = (i 1).val → (j 2).val = (i 2).val →
      V m c main_v0 j = ((A (512 * t.val + (i 0).val) (i 1).val (i 2).val : ℝ) : EReal) := by
    intro j h0 h1 h2; rw [hA j, h0, h1, h2]
  unfold tile0 iblk
  rw [View.read_apply]
  refine key _ ?_ ?_ ?_
  · show win0_0.index t (0 : Fin 3) * 512 + 1 * (i 0).val = _; omega
  · show win0_0.index t (1 : Fin 3) * 25 + 1 * (i 1).val = _; omega
  · show win0_0.index t (2 : Fin 3) * 100 + 1 * (i 2).val = _; omega

include hB in
/-- Tile `t` of the second input holds rows `512 t …` of the real array. -/
theorem tile1_apply (t : Fin cfg0.N) (i : S512x25x100.Idx) :
    tile1 m c t i = ((B (512 * t.val + (i 0).val) (i 1).val (i 2).val : ℝ) : EReal) := by
  obtain ⟨-, -, -, e0, e1, e2, -⟩ := block_indices t
  have key : ∀ j : S8192x25x100.Idx, (j 0).val = 512 * t.val + (i 0).val → (j 1).val = (i 1).val → (j 2).val = (i 2).val →
      V m c main_v1 j = ((B (512 * t.val + (i 0).val) (i 1).val (i 2).val : ℝ) : EReal) := by
    intro j h0 h1 h2; rw [hB j, h0, h1, h2]
  unfold tile1 iblk
  rw [View.read_apply]
  refine key _ ?_ ?_ ?_
  · show win0_1.index t (0 : Fin 3) * 512 + 1 * (i 0).val = _; omega
  · show win0_1.index t (1 : Fin 3) * 25 + 1 * (i 1).val = _; omega
  · show win0_1.index t (2 : Fin 3) * 100 + 1 * (i 2).val = _; omega

/-! ## The accumulator's corner, point by point -/

/-- The corner entry of an accumulator block. -/
abbrev corner : S1x8x128.Idx := ix3 (0 : Fin 1) (0 : Fin 8) (0 : Fin 128)

include hA hB in
/-- At a group's first point the corner ends at the group's first tile. -/
theorem corner_first (t : Fin cfg0.N) (h : t.val % 8 = 0) :
    outsAt0 m c t.val t.isLt corner = ((groupSq A B (t.val / 8) (t.val % 8 + 1) : ℝ) : EReal) := by
  rw [outsAt0_A m c t h]
  refine (congrFun (Pieces.out_reset (F := Ideal) c (grid0.coords t) (ms0_0 t) (hs0_0 t) (ms0_1 t) (hs0_1 t) (ms0_2 t) (hs0_2 t)
    ((hcond0_0 t).mpr h) (tile0 m c t) (tile1 m c t)) corner).trans ?_
  refine (Tile.pay2_corner A B (512 * t.val) (tile0 m c t) (tile1 m c t) (tile0_apply m c A hA t) (tile1_apply m c B hB t)
    t.val rfl (k0_pay1 (F := Ideal))).trans ?_
  rw [Tile.pay1_corner, ← EReal.coe_add, h]
  refine congrArg _ ?_
  unfold groupSq
  rw [Finset.sum_range_one, zero_add, Nat.add_zero]
  exact congrArg _ (by omega)

include hA hB in
/-- At any other point the corner grows by the point's tile. -/
theorem corner_next (t : Fin cfg0.N) (h : ¬t.val % 8 = 0)
    (ih : outsAt0 m c (t.val - 1) (Nat.lt_of_le_of_lt (Nat.sub_le _ _) t.isLt) corner
      = ((groupSq A B ((t.val - 1) / 8) ((t.val - 1) % 8 + 1) : ℝ) : EReal)) :
    outsAt0 m c t.val t.isLt corner = ((groupSq A B (t.val / 8) (t.val % 8 + 1) : ℝ) : EReal) := by
  rw [outsAt0_B m c t h]
  refine (congrFun (Pieces.out_carry (F := Ideal) c (grid0.coords t) (ms0_0 t) (hs0_0 t) (ms0_1 t) (hs0_1 t) (ms0_2 t) (hs0_2 t)
    (fun h' => h ((hcond0_0 t).mp h')) (tile0 m c t) (tile1 m c t)
    (outsAt0 m c (t.val - 1) (Nat.lt_of_le_of_lt (Nat.sub_le _ _) t.isLt))) corner).trans ?_
  refine (Tile.pay2_corner A B (512 * t.val) (tile0 m c t) (tile1 m c t) (tile0_apply m c A hA t) (tile1_apply m c B hB t)
    t.val rfl (outsAt0 m c (t.val - 1) (Nat.lt_of_le_of_lt (Nat.sub_le _ _) t.isLt))).trans ?_
  rw [ih, ← EReal.coe_add]
  refine congrArg _ ?_
  have e1 : (t.val - 1) / 8 = t.val / 8 := by omega
  have e2 : (t.val - 1) % 8 + 1 = t.val % 8 := by omega
  rw [e1, e2]
  unfold groupSq
  rw [Finset.sum_range_succ]
  exact congrArg (_ + tileSq A B ·) (by omega)

include hA hB in
/-- After point `n` the corner of the accumulator block holds its group's real sum of the tiles met so far. -/
theorem corner_eq : ∀ (n : ℕ) (hn : n < cfg0.N),
    outsAt0 m c n hn corner = ((groupSq A B (n / 8) (n % 8 + 1) : ℝ) : EReal)
  | 0, hn => corner_first m c A B hA hB ⟨0, hn⟩ rfl
  | n + 1, hn => by
    by_cases h : (n + 1) % 8 = 0
    · exact corner_first m c A B hA hB ⟨n + 1, hn⟩ h
    · exact corner_next m c A B hA hB ⟨n + 1, hn⟩ h (corner_eq n (Nat.lt_of_succ_lt hn))

end Cert.KernelIdeal.Accum

end
-- ==== Proof.Result.lean ====
/-
  The output array after the run, and the kernel's result.

  The 2 × 8 × 128 output array is written twice: block 0 after point 7, block 1 after point 15, each with what its
  accumulator block then holds. So its entry `(p, 0, 0)` is group `p`'s real sum of eight tiles. The host slices out
  the two corner entries, adds them up from zero and divides by 250000.
-/
import proofs.«104892_j23021024706837_1_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum Cert.Spec
open scoped BigOperators

variable (m : (ℓ : Loc nD τ sig) → Buf (Elt Ideal) ℓ) (ρ : Dev nD → PrngReg) (c : Dev nD)

/-! ## The output array -/

theorem lt7 : 7 < cfg0.N := by rw [show cfg0.N = 16 from N_0]; decide
theorem lt15 : 15 < cfg0.N := by rw [show cfg0.N = 16 from N_0]; decide

/-- An index of the output array, within its block. -/
def inBlock (i : S2x8x128.Idx) : S1x8x128.Idx := fun a => match a with
  | ⟨0, _⟩ => ⟨0, Nat.one_pos⟩
  | ⟨1, _⟩ => ⟨(i 1).val, (i 1).isLt⟩
  | ⟨2, _⟩ => ⟨(i 2).val, (i 2).isLt⟩

/-- The output array's final contents: block 0 as the accumulator stands after point 7, block 1 after point 15. -/
def outVec : Vec Ideal S2x8x128 .f32 := fun i =>
  if (i 0).val = 0 then outsAt0 m c 7 lt7 (inBlock i) else outsAt0 m c 15 lt15 (inBlock i)

/-- The same, typed as the contents of the output buffer. -/
abbrev outArr : Buf (Elt Ideal) ((c : Thread nD τ).loc main_v2) := outVec m c

/-- The output is written back after points 7 and 15 only. -/
theorem flush_points (t : Fin cfg0.N) (hf : (cfg0.win 2).flush t = true) : t = t0_7 ∨ t = t0_15 := by
  have h7 := (flush0_2 t).mp hf
  have hN : t.val < 16 := lt_of_lt_of_eq t.isLt (show cfg0.N = 16 from N_0)
  rcases (show t.val = 7 ∨ t.val = 15 by omega) with h | h
  · exact .inl (Fin.ext h)
  · exact .inr (Fin.ext h)

/-- What a flushing point writes back is its block of `outVec`. -/
theorem flushed_eq (t : Fin cfg0.N) (hf : (cfg0.win 2).flush t = true) :
    (dats m 0 c).flushed 2 t = ((cfg0.win 2).blk t).view.read (Elt Ideal) (outArr m c) := by
  show (cfg0.win 2).cut (grid0.coords t) ((dats m 0 c).after 2 t) = _
  rw [after0_2]
  rcases flush_points t hf with rfl | rfl
  · obtain ⟨-, -, -, -, -, -, e0, e1, e2⟩ := block_indices t0_7
    funext y
    rw [View.read_apply]
    show outsAt0 m c 7 lt7 y = outVec m c (((cfg0.win 2).blk t0_7).view.emb y)
    have hy : (y 0).val < 1 := (y 0).isLt
    have a0 : ((((cfg0.win 2).blk t0_7).view.emb y) 0).val = 0 := by
      show win0_2.index t0_7 (0 : Fin 3) * 1 + 1 * (y 0).val = 0
      rw [e0]; show 7 / 8 * 1 + 1 * (y 0).val = 0; omega
    unfold outVec
    rw [if_pos a0]
    refine congrArg _ (funext fun a => Fin.ext ?_)
    match a with
    | ⟨0, _⟩ => show (y 0).val = 0; omega
    | ⟨1, _⟩ => show (y 1).val = win0_2.index t0_7 (1 : Fin 3) * 8 + 1 * (y 1).val; omega
    | ⟨2, _⟩ => show (y 2).val = win0_2.index t0_7 (2 : Fin 3) * 128 + 1 * (y 2).val; omega
  · obtain ⟨-, -, -, -, -, -, e0, e1, e2⟩ := block_indices t0_15
    funext y
    rw [View.read_apply]
    show outsAt0 m c 15 lt15 y = outVec m c (((cfg0.win 2).blk t0_15).view.emb y)
    have hy : (y 0).val < 1 := (y 0).isLt
    have a0 : ¬((((cfg0.win 2).blk t0_15).view.emb y) 0).val = 0 := by
      show ¬(win0_2.index t0_15 (0 : Fin 3) * 1 + 1 * (y 0).val = 0)
      rw [e0]; show ¬(15 / 8 * 1 + 1 * (y 0).val = 0); omega
    unfold outVec
    rw [if_neg a0]
    refine congrArg _ (funext fun a => Fin.ext ?_)
    match a with
    | ⟨0, _⟩ => show (y 0).val = 0; omega
    | ⟨1, _⟩ => show (y 1).val = win0_2.index t0_15 (1 : Fin 3) * 8 + 1 * (y 1).val; omega
    | ⟨2, _⟩ => show (y 2).val = win0_2.index t0_15 (2 : Fin 3) * 128 + 1 * (y 2).val; omega

/-- An index of the output array is in point `t`'s block iff each coordinate is in the block's range on its axis. -/
theorem mem_block (t : Fin cfg0.N) (i : S2x8x128.Idx) :
    i ∈ ((cfg0.win 2).blk t).view.set ↔
      ∀ a : Fin 3, win0_2.index t a * S1x8x128.size a ≤ (i a).val ∧ (i a).val < win0_2.index t a * S1x8x128.size a + S1x8x128.size a := by
  show i ∈ ((View.whole main_v2).slice (win0_2.rect t)).set ↔ _
  rw [View.set_slice_whole, Rect.mem_set_unit]
  exact Iff.rfl

/-- The two written blocks cover the output array. -/
theorem covered (i : S2x8x128.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  by_cases hi : (i 0).val = 0
  · obtain ⟨-, -, -, -, -, -, e0, e1, e2⟩ := block_indices t0_7
    refine ⟨t0_7, (flush0_2 t0_7).mpr rfl, ?_⟩
    rw [mem_block]
    intro a
    match a with
    | ⟨0, _⟩ => show win0_2.index t0_7 (0 : Fin 3) * 1 ≤ (i 0).val ∧ (i 0).val < win0_2.index t0_7 (0 : Fin 3) * 1 + 1
                rw [e0]; show 7 / 8 * 1 ≤ (i 0).val ∧ (i 0).val < 7 / 8 * 1 + 1; omega
    | ⟨1, _⟩ => show win0_2.index t0_7 (1 : Fin 3) * 8 ≤ (i 1).val ∧ (i 1).val < win0_2.index t0_7 (1 : Fin 3) * 8 + 8; omega
    | ⟨2, _⟩ => show win0_2.index t0_7 (2 : Fin 3) * 128 ≤ (i 2).val ∧ (i 2).val < win0_2.index t0_7 (2 : Fin 3) * 128 + 128; omega
  · obtain ⟨-, -, -, -, -, -, e0, e1, e2⟩ := block_indices t0_15
    refine ⟨t0_15, (flush0_2 t0_15).mpr rfl, ?_⟩
    rw [mem_block]
    intro a
    match a with
    | ⟨0, _⟩ => show win0_2.index t0_15 (0 : Fin 3) * 1 ≤ (i 0).val ∧ (i 0).val < win0_2.index t0_15 (0 : Fin 3) * 1 + 1
                rw [e0]; show 15 / 8 * 1 ≤ (i 0).val ∧ (i 0).val < 15 / 8 * 1 + 1; omega
    | ⟨1, _⟩ => show win0_2.index t0_15 (1 : Fin 3) * 8 ≤ (i 1).val ∧ (i 1).val < win0_2.index t0_15 (1 : Fin 3) * 8 + 8; omega
    | ⟨2, _⟩ => show win0_2.index t0_15 (2 : Fin 3) * 128 ≤ (i 2).val ∧ (i 2).val < win0_2.index t0_15 (2 : Fin 3) * 128 + 128; omega

/-- So the output array ends holding `outVec`. -/
theorem final_out : (dats m 0 c).arrAt 2 cfg0.N = outArr m c :=
  (dats m 0 c).arrAt_eq_of_cover 2 (outArr m c) (flushed_eq m c) (covered)

variable (A B : ℕ → ℕ → ℕ → ℝ)
variable (hA : ∀ i : S8192x25x100.Idx, V m c main_v0 i = ((A (i 0).val (i 1).val (i 2).val : ℝ) : EReal))
variable (hB : ∀ i : S8192x25x100.Idx, V m c main_v1 i = ((B (i 0).val (i 1).val (i 2).val : ℝ) : EReal))

include hA hB in
/-- The output array at `(0, 0, 0)`: the first group's eight tiles. -/
theorem out_group0 : outVec m c (ix3 (0 : Fin 2) (0 : Fin 8) (0 : Fin 128)) = ((groupSq A B 0 8 : ℝ) : EReal) := by
  unfold outVec
  rw [if_pos (show ((ix3 (0 : Fin 2) (0 : Fin 8) (0 : Fin 128) : S2x8x128.Idx) 0).val = 0 from rfl)]
  have e : inBlock (ix3 (0 : Fin 2) (0 : Fin 8) (0 : Fin 128)) = corner :=
    funext fun a => Fin.ext (by match a with | ⟨0, _⟩ => rfl | ⟨1, _⟩ => rfl | ⟨2, _⟩ => rfl)
  rw [e]
  exact corner_eq m c A B hA hB 7 lt7

include hA hB in
/-- The output array at `(1, 0, 0)`: the second group's eight tiles. -/
theorem out_group1 : outVec m c (ix3 (1 : Fin 2) (0 : Fin 8) (0 : Fin 128)) = ((groupSq A B 1 8 : ℝ) : EReal) := by
  unfold outVec
  rw [if_neg (show ¬((ix3 (1 : Fin 2) (0 : Fin 8) (0 : Fin 128) : S2x8x128.Idx) 0).val = 0 from by decide)]
  have e : inBlock (ix3 (1 : Fin 2) (0 : Fin 8) (0 : Fin 128)) = corner :=
    funext fun a => Fin.ext (by match a with | ⟨0, _⟩ => rfl | ⟨1, _⟩ => rfl | ⟨2, _⟩ => rfl)
  rw [e]
  exact corner_eq m c A B hA hB 15 lt15

/-! ## The host's tail -/

/-- The host operations after the kernel, as a function of the output array: slice the two corner entries out, add
    them from zero, divide by 250000. -/
def tail (out : Vec Ideal S2x8x128 .f32) : FVec Ideal S_ .f32 :=
  Host.divf (Host.reduceAdd (shapeCast S2 (extractStridedSlice S2x1x1 ![0, 0, 0] out slices_S2x8x128_S2x1x1_0_0_0)
    shapeCasts_S2x1x1_S2) (constant S_ .f32 0x00000000#32) reducesTo_S2_S_d0 h_S_) (constant S_ .f32 0x48742400#32)

/-- Entry `a` of the sliced and reshaped pair is the output array's `(a, 0, 0)`. -/
theorem picked (out : Vec Ideal S2x8x128 .f32) (a : Fin 2) :
    shapeCast S2 (extractStridedSlice S2x1x1 ![0, 0, 0] out slices_S2x8x128_S2x1x1_0_0_0) shapeCasts_S2x1x1_S2 (ix1 a)
      = out (ix3 a (0 : Fin 8) (0 : Fin 128)) := by
  refine (shapeCast_apply _ shapeCasts_S2x1x1_S2 (ix1 a) (ix3 a (0 : Fin 1) (0 : Fin 1)) ?_).trans ?_
  · rw [Shape.rowMajor_val_three, Shape.rowMajor_val_one]
    show (a.val * 1 + 0) * 1 + 0 = a.val
    omega
  · refine extractStridedSlice_apply _ out slices_S2x8x128_S2x1x1_0_0_0 _ _ fun b => ?_
    match b with
    | ⟨0, _⟩ => show a.val = 0 + a.val; omega
    | ⟨1, _⟩ => rfl
    | ⟨2, _⟩ => rfl

/-- The tail of an output array whose two corner entries are the reals `g0`, `g1`. -/
theorem tail_apply (out : Vec Ideal S2x8x128 .f32) (g0 g1 : ℝ)
    (h0 : out (ix3 (0 : Fin 2) (0 : Fin 8) (0 : Fin 128)) = (g0 : EReal))
    (h1 : out (ix3 (1 : Fin 2) (0 : Fin 8) (0 : Fin 128)) = (g1 : EReal)) (j : S_.Idx) :
    tail out j = (((g0 + g1) / 250000 : ℝ) : EReal) := by
  have hsum : Host.reduceAdd (F := Ideal) (shapeCast S2 (extractStridedSlice S2x1x1 ![0, 0, 0] out slices_S2x8x128_S2x1x1_0_0_0)
      shapeCasts_S2x1x1_S2) (constant S_ .f32 0x00000000#32) reducesTo_S2_S_d0 h_S_ j = ((g0 + g1 : ℝ) : EReal) := by
    generalize hy : shapeCast S2 (extractStridedSlice S2x1x1 ![0, 0, 0] out slices_S2x8x128_S2x1x1_0_0_0) shapeCasts_S2x1x1_S2 = y
    simp only [Host.reduceAdd, Ideal.hostReduceAdd_def]
    rw [Ideal.hostReduceAdd_total reducesTo_S2_S_d0 (fun b => b.elim0) y _ j, sum_idx1, Fin.sum_univ_two]
    subst hy
    rw [picked, picked, h0, h1]
    show Ideal.ofBits .f32 0x00000000#32 + _ = _
    rw [Ideal.ofBits_zero_f32, zero_add, ← EReal.coe_add]
  show Ideal.div (Host.reduceAdd (F := Ideal) _ _ reducesTo_S2_S_d0 h_S_ j) (Ideal.ofBits .f32 0x48742400#32) = _
  rw [hsum, word_250000, div_real _ (by norm_num)]

include hA hB in
/-- THE KERNEL'S RESULT over real inputs: the real number `tiledLoss`. -/
theorem result_eq : Pipeline.afterTail₀ cfgs (dats m) 0 (V0 m) [hostOps1] c main_v6
    = fun _ => ((tiledLoss A B : ℝ) : EReal) := by
  have hout : Pipeline.withArrays (cfgs 0).spec c (V0 m c) (fun w => (dats m 0 c).arrAt w (cfgs 0).N) (Proc.devRef .tc main_v2)
      = outArr m c :=
    (Pipeline.withArrays_arr spec0 launch0.win.arr_inj c _ _ 2).trans (final_out m c)
  unfold Pipeline.afterTail₀
  show StableHlo.after hostOps1 _ (Proc.devRef .tc main_v6) = _
  after_results
  show tail (Pipeline.withArrays (cfgs 0).spec c (V0 m c) (fun w => (dats m 0 c).arrAt w (cfgs 0).N) (Proc.devRef .tc main_v2)) = _
  rw [hout]
  funext j
  rw [tail_apply (outVec m c) _ _ (out_group0 m c A B hA hB) (out_group1 m c A B hA hB) j]
  unfold tiledLoss
  rw [Finset.sum_range_succ, Finset.sum_range_one]

/-! ## The run -/

/-- The first input as rows × chunks × entries. -/
abbrev rows0 : S8192x25x100.Idx → EReal :=
  shapeCast S8192x25x100 (m ((c : Thread nD τ).loc main_arg0)) shapeCasts_S16x512x50x50_S8192x25x100
/-- The second input as rows × chunks × entries. -/
abbrev rows1 : S8192x25x100.Idx → EReal :=
  shapeCast S8192x25x100 (m ((c : Thread nD τ).loc main_arg1)) shapeCasts_S16x512x50x50_S8192x25x100

/-- From a memory whose two inputs hold real numbers only, every weakly fair execution of the kernel's program ends
    with its result at the real number `tiledLoss` of the inputs' real entries, the inputs unchanged. -/
theorem run (h0 : ∀ c i, rows0 m c i ≠ ⊥ ∧ rows0 m c i ≠ ⊤) (h1 : ∀ c i, rows1 m c i ≠ ⊥ ∧ rows1 m c i ≠ ⊤) :
    θ_run defs (onTc (τ := τ) (main (F := Ideal))) ⟨m, fun _ => 0, ρ⟩ fun r => ∀ c : Dev nD,
      r.2.mem ((c : Thread nD τ).loc main_v6)
          = (fun _ => ((tiledLoss (realOf (rows0 m c)) (realOf (rows1 m c)) : ℝ) : EReal))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v6 (Pipeline.mem_restRefs_of main_v6 (by decide) (by decide))).trans
        (result_eq m c (realOf (rows0 m c)) (realOf (rows1 m c))
          (fun i => (congrFun (entry0 m c) i).trans (coe_realOf _ (h0 c) i))
          (fun i => (congrFun (entry1 m c) i).trans (coe_realOf _ (h1 c) i))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.lean ====
/-
  The claim: the kernel against its reference, over the extended reals.

  Both programs take two arrays of 16 × 512 × 50 × 50 numbers and return one number. Reshaped to 8192 rows of 25 chunks
  of 100 entries, with `d r c` the difference of the two inputs' sums over chunk `c` of row `r`, the kernel returns
  `(∑ r c, d r c ^ 2) / 250000`, accumulated tile by tile over a grid; the reference returns
  `∑ r, (∑ c, (sum₀ r c / 100 - sum₁ r c / 100) ^ 2) / 25`. Under the precondition every input entry is a real number,
  so both are computed in the reals, where they are equal (`Cert.Spec.tiledLoss_eq_meanLoss`).

  The three frames: the kernel's two are the generated frame certificates; the reference's is its generated run with the
  result dropped. The ideal pass rewrote nothing, so `preserves` is trivial.
-/
import proofs.«104892_j23021024706837_1_alg».proof.Defs
import proofs.«104892_j23021024706837_1_alg».proof.Proof.Gen.Kernel
import proofs.«104892_j23021024706837_1_alg».proof.Proof.Gen.Kernel.Skeleton
import proofs.«104892_j23021024706837_1_alg».proof.Proof.Gen.Kernel.Launch
import proofs.«104892_j23021024706837_1_alg».proof.Proof.Gen.Kernel.Points
import proofs.«104892_j23021024706837_1_alg».proof.Proof.Gen.Kernel.Frame
import proofs.«104892_j23021024706837_1_alg».proof.Proof.Gen.KernelIdeal
import proofs.«104892_j23021024706837_1_alg».proof.Proof.Gen.KernelIdeal.Skeleton
import proofs.«104892_j23021024706837_1_alg».proof.Proof.Gen.KernelIdeal.Launch
import proofs.«104892_j23021024706837_1_alg».proof.Proof.Gen.KernelIdeal.Points
import proofs.«104892_j23021024706837_1_alg».proof.Proof.Gen.KernelIdeal.Frame
import proofs.«104892_j23021024706837_1_alg».proof.Proof.Gen.ReferenceIdeal
import proofs.«104892_j23021024706837_1_alg».proof.Proof.Gen.Pre_finite_inputs
import proofs.«104892_j23021024706837_1_alg».proof.Proof.Finite
import proofs.«104892_j23021024706837_1_alg».proof.Proof.RefValue
import proofs.«104892_j23021024706837_1_alg».proof.Proof.Result
import Idealize.ShloMosaic.Adequacy
import Idealize.ShloMosaic.Init

noncomputable section

namespace Cert.Proof

open Idealize.ShloMosaic Idealize.SL.Sem Cert.Spec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition both programs end at one real number: the kernel's tiled sum over 250000 and the
    reference's sum of row means are equal in the reals. -/
theorem algebraic : Cert.algebraic_KernelIdeal_ReferenceIdeal := by
  intro m ρ m' ρ' hpre hagree
  have hfin := fun c => Cert.Finite.real_of_pre _ _ (hpre c)
  have h0 : ∀ c i, Cert.KernelIdeal.Result.rows0 m c i ≠ ⊥ ∧ Cert.KernelIdeal.Result.rows0 m c i ≠ ⊤ :=
    fun c i => (hfin c).1 _
  have h1 : ∀ c i, Cert.KernelIdeal.Result.rows1 m c i ≠ ⊥ ∧ Cert.KernelIdeal.Result.rows1 m c i ≠ ⊤ :=
    fun c i => (hfin c).2 _
  refine ⟨_, Cert.KernelIdeal.Result.run m ρ h0 h1, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v13_eq]
  funext j
  refine (Cert.ReferenceIdeal.RefValue.result_apply _ _
    (realOf (Cert.KernelIdeal.Result.rows0 m c)) (realOf (Cert.KernelIdeal.Result.rows1 m c))
    (fun i => coe_realOf _ (h0 c) i) (fun i => coe_realOf _ (h1 c) i) j).trans ?_
  exact congrArg _ (tiledLoss_eq_meanLoss _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
